-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x32000 : Shape := ⟨2, ![8192, 32000]⟩
abbrev S8192 : Shape := ⟨1, ![8192]⟩
abbrev S_ : Shape := ⟨0, ![]⟩

class Facts : Prop where
  bcast_S_S8192x32000 : S_.BroadcastsInDim S8192x32000 (![] : Fin 0 → Fin S8192x32000.rank)
  reducesTo_S8192x32000_S_d0_1 : S8192x32000.ReducesTo [0, 1] S_
  h_S_ : 0 < S_.numel
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S8192x32000 .f32) (main_arg1 : IVec S8192 32) (main_arg2 : FVec F S8192 .f32) : IVec S_ 1 :=
  let main_v0 : FVec F S8192x32000 .f32 := Host.absf main_arg0
  let main_cst : FVec F S_ .f32 := constant S_ .f32 0x7F800000#32
  let main_v1 : FVec F S8192x32000 .f32 := broadcastInDim S8192x32000 ![] bcast_S_S8192x32000 main_cst
  let main_v2 : IVec S8192x32000 1 := cmpf .olt main_v0 main_v1
  let main_c : IVec S_ 1 := constantI S_ 1 1#1
  let main_v3 : IVec S_ 1 := (fun x v => Host.reduce IntOp.andi x v reducesTo_S8192x32000_S_d0_1 h_S_) main_v2 main_c
  let main_v4 : FVec F S8192 .f32 := Host.absf main_arg2
  let main_cst_0 : FVec F S_ .f32 := constant S_ .f32 0x7F800000#32
  let main_v5 : FVec F S8192 .f32 := broadcastInDim S8192 ![] bcast_S_S8192 main_cst_0
  let main_v6 : IVec S8192 1 := cmpf .olt main_v4 main_v5
  let main_c_1 : IVec S_ 1 := constantI S_ 1 1#1
  let main_v7 : IVec S_ 1 := (fun x v => Host.reduce IntOp.andi x v reducesTo_S8192_S_d0 h_S_) main_v6 main_c_1
  let main_v8 : IVec S_ 1 := andi main_v3 main_v7
  let main_c_2 : IVec S_ 32 := constantI S_ 32 0#32
  let main_v9 : IVec S8192 32 := broadcastInDim S8192 ![] bcast_S_S8192 main_c_2
  let main_v10 : IVec S8192 1 := cmpi .sge main_arg1 main_v9
  let main_c_3 : IVec S_ 32 := constantI S_ 32 32000#32
  let main_v11 : IVec S8192 32 := broadcastInDim S8192 ![] bcast_S_S8192 main_c_3
  let main_v12 : IVec S8192 1 := cmpi .slt main_arg1 main_v11
  let main_v13 : IVec S8192 1 := andi main_v10 main_v12
  let main_c_4 : IVec S_ 1 := constantI S_ 1 1#1
  let main_v14 : IVec S_ 1 := (fun x v => Host.reduce IntOp.andi x v reducesTo_S8192_S_d0 h_S_) main_v13 main_c_4
  let main_v15 : IVec S_ 1 := andi main_v8 main_v14
  main_v15
-- ==== Kernel.lean ====
abbrev S8192x32000 : Shape := ⟨2, ![8192, 32000]⟩
abbrev S8192 : Shape := ⟨1, ![8192]⟩
abbrev S_ : Shape := ⟨0, ![]⟩
abbrev S8192x1 : Shape := ⟨2, ![8192, 1]⟩
abbrev S8x8x128 : Shape := ⟨3, ![8, 8, 128]⟩
abbrev S1024x1280 : Shape := ⟨2, ![1024, 1280]⟩
abbrev S1024x1 : Shape := ⟨2, ![1024, 1]⟩
abbrev S1x8x128 : Shape := ⟨3, ![1, 8, 128]⟩
abbrev S1024 : Shape := ⟨1, ![1024]⟩
abbrev S1 : Shape := ⟨1, ![1]⟩
abbrev S1x1 : Shape := ⟨2, ![1, 1]⟩
abbrev S8x128 : Shape := ⟨2, ![8, 128]⟩
abbrev S8x1x1 : Shape := ⟨3, ![8, 1, 1]⟩
abbrev S8 : Shape := ⟨1, ![8]⟩

abbrev nBuf : Space → Nat
  | .hbm => 19
  | .vmem => 10
  | .smem => 0
  | _ => 0

abbrev bufTy : (tb : Table) → Fin (tcTables nBuf tb) → BufTy
  | .hbm, ⟨0, _⟩ => ⟨S8192x32000, .f32⟩
  | .hbm, ⟨1, _⟩ => ⟨S8192, .i32⟩
  | .hbm, ⟨2, _⟩ => ⟨S8192, .f32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S8192, .i32⟩
  | .hbm, ⟨7, _⟩ => ⟨S8192, .i32⟩
  | .hbm, ⟨8, _⟩ => ⟨S_, .i32⟩
  | .hbm, ⟨9, _⟩ => ⟨S8192, .i32⟩
  | .hbm, ⟨10, _⟩ => ⟨S8192, .i32⟩
  | .hbm, ⟨11, _⟩ => ⟨S8192x1, .i32⟩
  | .hbm, ⟨12, _⟩ => ⟨S8192x1, .f32⟩
  | .hbm, ⟨13, _⟩ => ⟨S8x8x128, .f32⟩
  | .hbm, ⟨14, _⟩ => ⟨S8x1x1, .f32⟩
  | .hbm, ⟨15, _⟩ => ⟨S8, .f32⟩
  | .hbm, ⟨16, _⟩ => ⟨S_, .f32⟩
  | .hbm, ⟨17, _⟩ => ⟨S_, .f32⟩
  | .hbm, ⟨18, _⟩ => ⟨S_, .f32⟩
  | .local _ .vmem, ⟨0, _⟩ => ⟨S1024x1280, .f32⟩
  | .local _ .vmem, ⟨1, _⟩ => ⟨S1024x1280, .f32⟩
  | .local _ .vmem, ⟨2, _⟩ => ⟨S1024x1, .i32⟩
  | .local _ .vmem, ⟨3, _⟩ => ⟨S1024x1, .i32⟩
  | .local _ .vmem, ⟨4, _⟩ => ⟨S1024x1, .f32⟩
  | .local _ .vmem, ⟨5, _⟩ => ⟨S1024x1, .f32⟩
  | .local _ .vmem, ⟨6, _⟩ => ⟨S1x8x128, .f32⟩
  | .local _ .vmem, ⟨7, _⟩ => ⟨S1x8x128, .f32⟩
  | .local _ .vmem, ⟨8, _⟩ => ⟨S1024x1, .f32⟩
  | .local _ .vmem, ⟨9, _⟩ => ⟨S1024x1280, .i32⟩
  | _, _ => ⟨S8192x32000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 25], ![false, false]⟩

def k0_cond2 (i : grid0.Coords) : BitVec 1 :=
  let arg1 : BitVec 32 := BitVec.ofNat 32 (i 1).val
  let c24_i32 : BitVec 32 := 24#32
  let v24 : BitVec 1 := Scalar.cmpi .eq arg1 c24_i32
  let v25 : BitVec 32 := Scalar.extui v24
  let c0_i32_13 : BitVec 32 := 0#32
  let v26 : BitVec 1 := Scalar.cmpi .ne v25 c0_i32_13
  v26

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bcast_S_S8192 : S_.BroadcastsInDim S8192 (![] : Fin 0 → Fin S8192.rank)
  shapeCasts_S8192_S8192x1 : S8192.ShapeCasts S8192x1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  iota_S1024x1280_d1_w32 : S1024x1280.Iotas .tc 32 [1]
  inb_S1024x1280_S1024x1280_0_0 : ∀ a, (![0, 0] : Fin 2 → Nat) a + S1024x1280.size a ≤ S1024x1280.size a
  h_S1024x1280 : 0 < S1024x1280.numel
  shapeCasts_S1024x1280_S1024x1280 : S1024x1280.ShapeCasts S1024x1280
  broadcasts_S1024x1_S1024x1280 : S1024x1.Broadcasts S1024x1280
  reduces_S1024x1280_S1024 : S1024x1280.Reduces [1] S1024
  shapeCasts_S1024_S1024x1 : S1024.ShapeCasts S1024x1
  reduces_S1024x1_S1 : S1024x1.Reduces [0] S1
  shapeCasts_S1_S1x1 : S1.ShapeCasts S1x1
  inpos_S1x1_p0_0 : ∀ a, (![0, 0] : Fin 2 → Nat) a < S1x1.size a
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  slices_S8x8x128_S8x1x1_0_0_0 : S8x8x128.Slices ![0, 0, 0] S8x1x1
  shapeCasts_S8x1x1_S8 : S8x1x1.ShapeCasts S8
  reducesTo_S8_S_d0 : S8.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1280.size a ≤ S8192x32000.size a
  hwx0_0 : ∀ i : grid0.Coords, EltTy.bits .f32 = 32 ∨ (Rect.block (s := S8192x32000) S1024x1280.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S8192x1.size a
  hwx0_1 : ∀ i : grid0.Coords, EltTy.bits .i32 = 32 ∨ (Rect.block (s := S8192x1) S1024x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x128.size a ≤ S8x8x128.size a
  hwx0_3 : ∀ i : grid0.Coords, EltTy.bits .f32 = 32 ∨ (Rect.block (s := S8x8x128) S1x8x128.size (cc0_transform_3 i) (hinb0_3 i)).WholeWords (EltTy.packing .f32)

variable [Facts₀]

abbrev win0_0 : Pipeline.Window sig grid0 :=
  Pipeline.Window.ofSpec (Memref.whole main_arg0) S1024x1280.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x32000 : Shape := ⟨2, ![8192, 32000]⟩
abbrev S8192 : Shape := ⟨1, ![8192]⟩
abbrev S8192x1 : Shape := ⟨2, ![8192, 1]⟩
abbrev S_ : Shape := ⟨0, ![]⟩
abbrev S8192x1x1 : Shape := ⟨3, ![8192, 1, 1]⟩
abbrev S1 : Shape := ⟨1, ![1]⟩
abbrev S1x1x1 : Shape := ⟨3, ![1, 1, 1]⟩

abbrev nBuf : Space → Nat
  | .hbm => 31
  | .vmem => 0
  | .smem => 0
  | _ => 0

abbrev bufTy : (tb : Table) → Fin (tcTables nBuf tb) → BufTy
  | .hbm, ⟨0, _⟩ => ⟨S8192x32000, .f32⟩
  | .hbm, ⟨1, _⟩ => ⟨S8192, .i32⟩
  | .hbm, ⟨2, _⟩ => ⟨S8192, .f32⟩
  | .hbm, ⟨3, _⟩ => ⟨S8192x1, .i32⟩
  | .hbm, ⟨4, _⟩ => ⟨S_, .i32⟩
  | .hbm, ⟨5, _⟩ => ⟨S8192x1, .i32⟩
  | .hbm, ⟨6, _⟩ => ⟨S8192x1, .i1⟩
  | .hbm, ⟨7, _⟩ => ⟨S_, .i32⟩
  | .hbm, ⟨8, _⟩ => ⟨S8192x1, .i32⟩
  | .hbm, ⟨9, _⟩ => ⟨S8192x1, .i32⟩
  | .hbm, ⟨10, _⟩ => ⟨S8192x1, .i32⟩
  | .hbm, ⟨11, _⟩ => ⟨S8192x1x1, .i32⟩
  | .hbm, ⟨12, _⟩ => ⟨S1, .i32⟩
  | .hbm, ⟨13, _⟩ => ⟨S_, .i32⟩
  | .hbm, ⟨14, _⟩ => ⟨S8192x1x1, .i32⟩
  | .hbm, ⟨15, _⟩ => ⟨S8192x1x1, .i1⟩
  | .hbm, ⟨16, _⟩ => ⟨S1x1x1, .i32⟩
  | .hbm, ⟨17, _⟩ => ⟨S8192x1x1, .i32⟩
  | .hbm, ⟨18, _⟩ => ⟨S8192x1x1, .i1⟩
  | .hbm, ⟨19, _⟩ => ⟨S8192x1x1, .i1⟩
  | .hbm, ⟨20, _⟩ => ⟨S_, .i1⟩
  | .hbm, ⟨21, _⟩ => ⟨S8192x1, .i1⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192, .f32⟩
  | .hbm, ⟨27, _⟩ => ⟨S8192, .f32⟩
  | .hbm, ⟨28, _⟩ => ⟨S_, .f32⟩
  | .hbm, ⟨29, _⟩ => ⟨S_, .f32⟩
  | .hbm, ⟨30, _⟩ => ⟨S_, .f32⟩
  | _, _ => ⟨S8192x32000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_cst : Ref sig .tc := ⟨.hbm, 23, rfl⟩
abbrev main_call0_v14 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_cst : Ref sig .tc := ⟨.hbm, 28, rfl⟩
abbrev main_v4 : Ref sig .tc := ⟨.hbm, 29, rfl⟩
abbrev main_v5 : Ref sig .tc := ⟨.hbm, 30, rfl⟩

abbrev nD : Nat := 1
abbrev τ : Topo := Topo.v7x

variable {F : FTy → Type} [FloatOps F]

class Facts₀ : Prop where
  bcast_S8192_S8192x1_0 : S8192.BroadcastsInDim S8192x1 (![0] : Fin 1 → Fin S8192x1.rank)
  bcast_S_S8192x1 : S_.BroadcastsInDim S8192x1 (![] : Fin 0 → Fin S8192x1.rank)
  shapeCasts_S8192x1_S8192x1x1 : S8192x1.ShapeCasts S8192x1x1
  bcast_S_S8192x1x1 : S_.BroadcastsInDim S8192x1x1 (![] : Fin 0 → Fin S8192x1x1.rank)
  bcast_S1_S1x1x1_2 : S1.BroadcastsInDim S1x1x1 (![2] : Fin 1 → Fin S1x1x1.rank)
  bcast_S1x1x1_S8192x1x1_0_1_2 : S1x1x1.BroadcastsInDim S8192x1x1 (![0, 1, 2] : Fin 3 → Fin S8192x1x1.rank)
  reducesTo_S8192x1x1_S8192x1_d2 : S8192x1x1.ReducesTo [2] S8192x1
  h_S_ : 0 < S_.numel
  shapeCasts_S8192x1_S8192 : S8192x1.ShapeCasts S8192
  reducesTo_S8192_S_d0 : S8192.ReducesTo [0] S_
  gather_S8192x32000_S8192x1x1_S8192x1_n_1_0_0_1_2_11_wf : GatherDims.WF S8192x32000 S8192x1x1 S8192x1 [] [1] [0] [1] [0] 2 ![1, 1]

variable [Facts₀]

def gather_S8192x32000_S8192x1x1_S8192x1_n_1_0_0_1_2_11 : GatherDims S8192x32000 S8192x1x1 S8192x1 where
  offsetDims := []
  collapsedSliceDims := [1]
  operandBatchingDims := [0]
  startIndicesBatchingDims := [0]
  startIndexMap := [1]
  indexVectorDim := 2
  sliceSizes := ![1, 1]
  wf := gather_S8192x32000_S8192x1x1_S8192x1_n_1_0_0_1_2_11_wf

class Facts : Prop extends Facts₀ where

variable [Facts]
-- ==== Proof.Loss.lean ====
/-
  The loss both programs compute, as ONE function of the three argument arrays over the extended reals:
  row R of prob [8192 x 32000] is read at the column its target word names, multiplied by the row's reward, the
  8192 products are summed from zero and the sum is negated. Beside it, the arithmetic the kernel's tiling rests on:
  the rows regrouped into 8 blocks of 1024, and the test by which a lane of column tile j recognises the target.
-/
import Idealize.ShloMosaic.PureOps.Ideal
import Idealize.ShloMosaic.PureOps.Ideal.Laws
import Idealize.ShloMosaic.Lib.ValueIdx
import Idealize.ShloMosaic.Lib.StableHlo.Predicate

noncomputable section

namespace Cert.GanLoss

open Idealize.ShloMosaic Idealize.ShloMosaic.ValueIdx

/-- The probability table's shape and the shape of the two per-row vectors. -/
abbrev SProb : Shape := ⟨2, ![8192, 32000]⟩
abbrev SRow : Shape := ⟨1, ![8192]⟩

/-- The column a target word names: the word read as a signed number and clamped into the table's 32000 columns
    (a gather clamps its start index so; a word already in range names itself, `colOf_val`). -/
def colOf (t : BitVec 32) : Fin 32000 := ⟨min t.toInt.toNat 31999, by omega⟩

theorem colOf_val {t : BitVec 32} (h : t.toNat < 32000) : (colOf t).val = t.toNat := by
  have e : t.toInt = (t.toNat : Int) := StableHlo.Predicate.toInt_eq_toNat_of_lt (by omega)
  show min t.toInt.toNat 31999 = t.toNat
  rw [e, Int.toNat_natCast]
  omega

/-- Row R's term: its picked probability times its reward. -/
def term (p : SProb.Idx → EReal) (tg : SRow.Idx → BitVec 32) (w : SRow.Idx → EReal) (R : Fin 8192) : EReal :=
  p (ix2 R (colOf (tg (ix1 R)))) * w (ix1 R)

/-- The loss: minus the sum, from zero, of the 8192 rows' terms. -/
def loss (p : SProb.Idx → EReal) (tg : SRow.Idx → BitVec 32) (w : SRow.Idx → EReal) : EReal :=
  -(0 + ∑ R : Fin 8192, term p tg w R)

/-- A sum over the indices of a vector is the sum over its positions. -/
theorem sum_idx1 {M : Type*} [AddCommMonoid M] {n : Nat} (f : (⟨1, ![n]⟩ : Shape).Idx → M) :
    ∑ j, f j = ∑ R : Fin n, f (ix1 R) :=
  Fintype.sum_equiv ⟨fun j => j 0, ix1, fun j => (eq_ix1 j).symm, fun _ => rfl⟩ _ _ fun j => congrArg f (eq_ix1 j)

/-- The 8192 rows are 8 blocks of 1024: row R is row r of block k when R = 1024 k + r. -/
theorem sum_blocks {M : Type*} [AddCommMonoid M] (f : Fin 8192 → M) :
    ∑ R, f R = ∑ k : Fin 8, ∑ r : Fin 1024, f ⟨1024 * k.val + r.val, by omega⟩ := by
  have e := Fintype.sum_equiv (finProdFinEquiv (m := 8) (n := 1024))
    (fun q : Fin 8 × Fin 1024 => f ⟨1024 * q.1.val + q.2.val, by omega⟩) (fun R : Fin (8 * 1024) => f R)
    (fun q => congrArg f (Fin.ext (by simp [finProdFinEquiv]; omega)))
  rw [Fintype.sum_prod_type] at e
  exact e.symm

/-- THE LANE TEST. In column tile j (columns 1280 j … 1280 j + 1279) lane l holds the word l, and the kernel compares
    it with the target word shifted down by 1280 j: for a target in range the two words are equal exactly when
    column 1280 j + l is the target, nothing wrapping. -/
theorem lane_match (t : BitVec 32) (ht : t.toNat < 32000) (j l : Nat) (hj : j < 25) (hl : l < 1280) :
    IntOp.cmpi .eq (BitVec.ofNat 32 l) (IntOp.subi t (Scalar.muli (BitVec.ofNat 32 j) 1280#32)) = 1#1
      ↔ 1280 * j + l = t.toNat := by
  rw [StableHlo.Predicate.cmpi_eq_iff]
  unfold IntOp.subi Scalar.muli IntOp.muli
  constructor
  · intro h
    have h' := congrArg BitVec.toNat h
    simp only [BitVec.toNat_sub, BitVec.toNat_mul, BitVec.toNat_ofNat] at h'
    omega
  · intro h
    apply BitVec.eq_of_toNat_eq
    simp only [BitVec.toNat_sub, BitVec.toNat_mul, BitVec.toNat_ofNat]
    omega

end Cert.GanLoss

end
-- ==== Proof.Pieces.lean ====
/-
  What the kernel body leaves behind at one grid point, case by case, as values of what it loaded.
  The body keeps two arrays between grid points: a column accumulator [1024 x 1] and a table [1024 x 1280] of lane
  numbers. At the first column tile of a row block it stores zeros into the accumulator and the lane numbers into
  the table, and reads both back; at every tile it adds to the accumulator one column of per-row products; at the last
  tile it also stores the accumulator's total, splat over an [1 x 8 x 128] slab, into the output block.
  Each case's stores cover their array whole, so what an array holds afterwards is the last store's payload, and a load
  that follows a store reads that store's payload.
-/
import proofs.«413421_j89008902242786_3_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen
open Idealize.ShloMosaic Idealize.ShloMosaic.TcCoe Idealize.SL.Sem Idealize.ShloMosaic.Tactic
open Idealize.ShloMosaic.Pipeline (Dat)

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A MIDDLE TILE (neither first nor last): the accumulator, holding `xs0`, ends at the update's payload over the
    three input blocks, the carried lane table `xs1` and `xs0` itself. -/
theorem acc_B (c : Dev nD) (i : grid0.Coords) (a2 : Memref sig .tc .vmem S1024x1280 .f32) (h2 : a2.IsWhole) (a3 : Memref sig .tc .vmem S1024x1 .i32) (h3 : a3.IsWhole) (a4 : Memref sig .tc .vmem S1024x1 .f32) (h4 : a4.IsWhole) (a5 : Memref sig .tc .vmem S1x8x128 .f32) (h5 : a5.IsWhole) (a6 : Memref sig .tc .vmem S1024x1 .f32) (h6 : a6.IsWhole) (a7 : Memref sig .tc .vmem S1024x1280 .i32) (h7 : a7.IsWhole) (hc0 : ¬cond0_0 i) (hc1 : ¬cond0_1 i)
    (x0 : Vec F S1024x1280 .f32) (x1 : Vec F S1024x1 .i32) (x2 : Vec F S1024x1 .f32) (xs0 : Vec F S1024x1 .f32) (xs1 : Vec F S1024x1280 .i32) :
    sout0_B_0 c i a2 h2 a3 h3 a4 h4 a5 h5 a6 h6 a7 h7 hc0 hc1 x0 x1 x2 xs0 xs1 = k0_pay3 i x0 x1 x2 xs1 xs0 := by
  unfold sout0_B_0
  rw [View.read_writes_eq_canon _ _ _ (scover0_B_0 c i a2 h2 a3 h3 a4 h4 a5 h5 a6 h6 a7 h7 hc0 hc1 x0 x1 x2 xs0 xs1)]
  unfold kernelRun0_B
  dsimp only
  sl_unfold_words
  rw [View.canon_unit_zero hz2]
  simp only [View.readAt_eq_ld, h2.read_unread, h3.read_unread, h4.read_unread, h6.read_unread, h7.read_unread,
    View.ld_unit_zero (S := S1024x1280) hz2, View.ld_unit_zero (S := S1024x1) hz2]

/-- THE LAST TILE: the accumulator ends at the same update's payload, -/
theorem acc_C (c : Dev nD) (i : grid0.Coords) (a2 : Memref sig .tc .vmem S1024x1280 .f32) (h2 : a2.IsWhole) (a3 : Memref sig .tc .vmem S1024x1 .i32) (h3 : a3.IsWhole) (a4 : Memref sig .tc .vmem S1024x1 .f32) (h4 : a4.IsWhole) (a5 : Memref sig .tc .vmem S1x8x128 .f32) (h5 : a5.IsWhole) (a6 : Memref sig .tc .vmem S1024x1 .f32) (h6 : a6.IsWhole) (a7 : Memref sig .tc .vmem S1024x1280 .i32) (h7 : a7.IsWhole) (hc0 : ¬cond0_0 i) (hc1 : cond0_1 i)
    (x0 : Vec F S1024x1280 .f32) (x1 : Vec F S1024x1 .i32) (x2 : Vec F S1024x1 .f32) (xs0 : Vec F S1024x1 .f32) (xs1 : Vec F S1024x1280 .i32) :
    sout0_C_0 c i a2 h2 a3 h3 a4 h4 a5 h5 a6 h6 a7 h7 hc0 hc1 x0 x1 x2 xs0 xs1 = k0_pay3 i x0 x1 x2 xs1 xs0 := by
  unfold sout0_C_0
  rw [View.read_writes_eq_canon _ _ _ (scover0_C_0 c i a2 h2 a3 h3 a4 h4 a5 h5 a6 h6 a7 h7 hc0 hc1 x0 x1 x2 xs0 xs1)]
  unfold kernelRun0_C
  dsimp only
  sl_unfold_words
  rw [View.canon_unit_zero hz2]
  simp only [View.readAt_eq_ld, h2.read_unread, h3.read_unread, h4.read_unread, h6.read_unread, h7.read_unread,
    View.ld_unit_zero (S := S1024x1280) hz2, View.ld_unit_zero (S := S1024x1) hz2]

/-- and the output block at the total of that updated accumulator, which the body reads back after storing it. -/
theorem out_C (c : Dev nD) (i : grid0.Coords) (a2 : Memref sig .tc .vmem S1024x1280 .f32) (h2 : a2.IsWhole) (a3 : Memref sig .tc .vmem S1024x1 .i32) (h3 : a3.IsWhole) (a4 : Memref sig .tc .vmem S1024x1 .f32) (h4 : a4.IsWhole) (a5 : Memref sig .tc .vmem S1x8x128 .f32) (h5 : a5.IsWhole) (a6 : Memref sig .tc .vmem S1024x1 .f32) (h6 : a6.IsWhole) (a7 : Memref sig .tc .vmem S1024x1280 .i32) (h7 : a7.IsWhole) (hc0 : ¬cond0_0 i) (hc1 : cond0_1 i)
    (x0 : Vec F S1024x1280 .f32) (x1 : Vec F S1024x1 .i32) (x2 : Vec F S1024x1 .f32) (xs0 : Vec F S1024x1 .f32) (xs1 : Vec F S1024x1280 .i32) :
    out0_C_3 c i a2 h2 a3 h3 a4 h4 a5 h5 a6 h6 a7 h7 hc0 hc1 x0 x1 x2 xs0 xs1 = k0_pay4 (k0_pay3 i x0 x1 x2 xs1 xs0) := by
  unfold out0_C_3
  rw [View.read_writes_eq_canon _ _ _ (cover0_C_3 c i a2 h2 a3 h3 a4 h4 a5 h5 a6 h6 a7 h7 hc0 hc1 x0 x1 x2 xs0 xs1)]
  unfold kernelRun0_C
  dsimp only
  sl_unfold_words
  rw [View.canon_unit_zero hz3]
  simp only [View.readCov_unit_zero (S := S1024x1) _ hz2, View.readAt_eq_ld, h2.read_unread, h3.read_unread, h4.read_unread,
    h6.read_unread, h7.read_unread, View.ld_unit_zero (S := S1024x1280) hz2, View.ld_unit_zero (S := S1024x1) hz2]

/-- THE FIRST TILE: zeros and the lane numbers are stored and read back, so the accumulator ends at the update's payload
    over the zero column and the lane table just written, -/
theorem acc_A (c : Dev nD) (i : grid0.Coords) (a2 : Memref sig .tc .vmem S1024x1280 .f32) (h2 : a2.IsWhole) (a3 : Memref sig .tc .vmem S1024x1 .i32) (h3 : a3.IsWhole) (a4 : Memref sig .tc .vmem S1024x1 .f32) (h4 : a4.IsWhole) (a5 : Memref sig .tc .vmem S1x8x128 .f32) (h5 : a5.IsWhole) (a6 : Memref sig .tc .vmem S1024x1 .f32) (h6 : a6.IsWhole) (a7 : Memref sig .tc .vmem S1024x1280 .i32) (h7 : a7.IsWhole) (hc0 : cond0_0 i) (hc1 : ¬cond0_1 i)
    (x0 : Vec F S1024x1280 .f32) (x1 : Vec F S1024x1 .i32) (x2 : Vec F S1024x1 .f32) :
    sout0_A_0 c i a2 h2 a3 h3 a4 h4 a5 h5 a6 h6 a7 h7 hc0 hc1 x0 x1 x2 = k0_pay3 i x0 x1 x2 k0_pay2 k0_pay1 := by
  unfold sout0_A_0
  rw [View.read_writes_eq_canon _ _ _ (scover0_A_0 c i a2 h2 a3 h3 a4 h4 a5 h5 a6 h6 a7 h7 hc0 hc1 x0 x1 x2)]
  unfold kernelRun0_A
  dsimp only
  sl_unfold_words
  rw [View.canon_cons_unit_zero (S := S1024x1) hz2]
  simp only [View.readCov_unit_zero (S := S1024x1) _ hz2, View.readCov_unit_zero (S := S1024x1280) _ hz2, View.readAt_eq_ld,
    h2.read_unread, h3.read_unread, h4.read_unread, View.ld_unit_zero (S := S1024x1280) hz2, View.ld_unit_zero (S := S1024x1) hz2]

/-- and the lane table holds the lane numbers. -/
theorem iota_A (c : Dev nD) (i : grid0.Coords) (a2 : Memref sig .tc .vmem S1024x1280 .f32) (h2 : a2.IsWhole) (a3 : Memref sig .tc .vmem S1024x1 .i32) (h3 : a3.IsWhole) (a4 : Memref sig .tc .vmem S1024x1 .f32) (h4 : a4.IsWhole) (a5 : Memref sig .tc .vmem S1x8x128 .f32) (h5 : a5.IsWhole) (a6 : Memref sig .tc .vmem S1024x1 .f32) (h6 : a6.IsWhole) (a7 : Memref sig .tc .vmem S1024x1280 .i32) (h7 : a7.IsWhole) (hc0 : cond0_0 i) (hc1 : ¬cond0_1 i)
    (x0 : Vec F S1024x1280 .f32) (x1 : Vec F S1024x1 .i32) (x2 : Vec F S1024x1 .f32) :
    sout0_A_1 c i a2 h2 a3 h3 a4 h4 a5 h5 a6 h6 a7 h7 hc0 hc1 x0 x1 x2 = k0_pay2 := by
  unfold sout0_A_1
  rw [View.read_writes_eq_canon _ _ _ (scover0_A_1 c i a2 h2 a3 h3 a4 h4 a5 h5 a6 h6 a7 h7 hc0 hc1 x0 x1 x2)]
  unfold kernelRun0_A
  dsimp only
  sl_unfold_words
  rw [View.canon_unit_zero hz2]

end Cert.KernelIdeal.Pieces

end
-- ==== Proof.Payload.lean ====
/-
  The kernel body's stored values read at an index, over the extended reals: the reset column is zero, the lane table
  holds each lane's number, the accumulator's update adds to row r the reward times the lane sum of the masked
  probabilities, and the output slab holds the accumulator's total at every entry.
-/
import proofs.«413421_j89008902242786_3_alg».proof.Proof.Gen.KernelIdeal.Frame
import proofs.«413421_j89008902242786_3_alg».proof.Proof.Loss
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

namespace Cert.KernelIdeal.Payload

open Cert.KernelIdeal Cert.KernelIdeal.Gen
open Idealize.ShloMosaic Idealize.ShloMosaic.TcCoe Idealize.SL.Sem Idealize.ShloMosaic.Tactic Idealize.ShloMosaic.ValueIdx
open Idealize.ShloMosaic.Pipeline (Dat)

/-- The lane table: lane `l` of every row holds the word `l`. -/
theorem lanes_apply (r : Fin 1024) (l : Fin 1280) : (k0_pay2 : IVec S1024x1280 32) (ix2 r l) = BitVec.ofNat 32 l.val := by
  unfold k0_pay2
  rw [shapeCast_self]
  show BitVec.ofNat 32 (0 * 1280 + l.val) = _
  rw [Nat.zero_mul, Nat.zero_add]

/-- The reset column is zero. -/
theorem zeros_apply (y : S1024x1.Idx) : (k0_pay1 (F := Ideal)) y = 0 := by
  unfold k0_pay1
  rw [shapeCast_self]
  exact Ideal.ofBits_zero_f32

/-- Row `r`'s lanes: the index the lane sum visits at lane `l` is (r, l). -/
theorem lift_row (r : Fin 1024) (l : Fin 1280) : reduces_S1024x1280_S1024.lift (ix1 r) l = ix2 r l := by
  funext a
  match a with
  | ⟨0, _⟩ => rfl
  | ⟨1, _⟩ => rfl

/-- A sum along the lanes, at row `r`, is the sum of the row's 1280 entries. -/
theorem rowsum_apply (v : FVec Ideal S1024x1280 .f32) (hφ : FKind.Formats .f32) (hacc : (0x00000000#32 : BitVec 32) = 0x00000000#32) (r : Fin 1024) :
    multiReduction .add [1] S1024 v 0x00000000#32 reduces_S1024x1280_S1024 hφ hacc (ix1 r) = ∑ l : Fin 1280, v (ix2 r l) := by
  refine (Ideal.multiReduction_add_single v 0x00000000#32 reduces_S1024x1280_S1024 hφ hacc (ix1 r)).trans ?_
  show ∑ l : Fin 1280, _ = _
  exact Finset.sum_congr rfl fun l _ => congrArg v (lift_row r l)

/-- THE UPDATE at row `r`: the accumulator's entry plus the reward times the row's lane sum of the probabilities
    kept where the lane table's word equals the row's target word shifted down by 1280 times the column tile's number. -/
theorem update_apply (i : grid0.Coords) (x0 : Vec Ideal S1024x1280 .f32) (x1 : Vec Ideal S1024x1 .i32) (x2 : Vec Ideal S1024x1 .f32)
    (xi : Vec Ideal S1024x1280 .i32) (xa : Vec Ideal S1024x1 .f32) (r : Fin 1024) :
    k0_pay3 i x0 x1 x2 xi xa (ix2 r (0 : Fin 1))
      = xa (ix2 r 0) + (∑ l : Fin 1280, Scalar.select (IntOp.cmpi .eq (xi (ix2 r l))
          (IntOp.subi (x1 (ix2 r 0)) (Scalar.muli (BitVec.ofNat 32 (i 1).val) 1280#32))) (x0 (ix2 r l)) (0 : EReal)) * x2 (ix2 r 0) := by
  unfold k0_pay3
  dsimp only
  simp only [shapeCast_self]
  rw [addf_apply, mulf_apply]
  rw [shapeCast_apply _ shapeCasts_S1024_S1024x1 (ix2 r (0 : Fin 1)) (ix1 r) (by
    rw [Shape.rowMajor_val_one, Shape.rowMajor_val_two]; show r.val = r.val * 1 + 0; omega)]
  refine congrArg (fun s => xa (ix2 r 0) + s * x2 (ix2 r 0)) ((rowsum_apply _ _ _ r).trans ?_)
  refine Finset.sum_congr rfl fun l _ => ?_
  show Scalar.select (IntOp.cmpi .eq (xi (ix2 r l)) (broadcastTo S1024x1280 _ broadcasts_S1024x1_S1024x1280 (ix2 r l))) (x0 (ix2 r l)) (Ideal.ofBits .f32 0#32) = _
  rw [broadcastTo_apply _ broadcasts_S1024x1_S1024x1280 (ix2 r l) (ix2 r (0 : Fin 1)) (fun a => by
    match a with
    | ⟨0, _⟩ => rfl
    | ⟨1, _⟩ => rfl), Ideal.ofBits_zero_f32]
  rfl

/-- A sum down the one column is the sum of its 1024 entries, whatever the result's one index. -/
theorem colsum_apply (v : FVec Ideal S1024x1 .f32) (hφ : FKind.Formats .f32) (hacc : (0x00000000#32 : BitVec 32) = 0x00000000#32) (j : S1.Idx) :
    multiReduction .add [0] S1 v 0x00000000#32 reduces_S1024x1_S1 hφ hacc j = ∑ q : S1024x1.Idx, v q :=
  Ideal.multiReduction_add_total v 0x00000000#32 reduces_S1024x1_S1 (by decide) hφ hacc j

/-- THE TOTAL: every entry of the output slab is the sum of the accumulator's 1024 entries. -/
theorem total_apply (v : Vec Ideal S1024x1 .f32) (y : S1x8x128.Idx) : k0_pay4 v y = ∑ q : S1024x1.Idx, v q := by
  unfold k0_pay4
  dsimp only
  unfold shapeCast broadcast extractAt
  exact colsum_apply v _ _ _

end Cert.KernelIdeal.Payload

end
-- ==== Proof.Tile.lean ====
/-
  One column tile's contribution to one row, as arithmetic on the extended reals and on 32-bit words.
  Row R has a target word t in [0, 32000) and a picked probability P = prob[R, t]; W is its reward. Column tile j holds
  columns 1280 j … 1280 j + 1279; its lane l compares the word l with t - 1280 j and keeps the tile's entry f l there,
  zero elsewhere. So the tile's lane sum is P when t lies in the tile and 0 otherwise, and an accumulator that holds
  P W once a tile at or before it held the target, 0 until then, is carried from "before tile j" to "before tile j + 1"
  by adding the lane sum times W. No distributivity is used: a tile that misses adds 0 W = 0.
-/
import proofs.«413421_j89008902242786_3_alg».proof.Proof.Loss

noncomputable section

namespace Cert.GanLoss

open Idealize.ShloMosaic Idealize.ShloMosaic.ValueIdx

/-- The masked entry of lane `l` in tile `j`: the tile's entry where column 1280 j + l is the target, else zero. -/
theorem masked_lane (t : BitVec 32) (ht : t.toNat < 32000) (j : Nat) (hj : j < 25) (f : Fin 1280 → EReal) (l : Fin 1280) :
    Scalar.select (IntOp.cmpi .eq (BitVec.ofNat 32 l.val) (IntOp.subi t (Scalar.muli (BitVec.ofNat 32 j) 1280#32))) (f l) (0 : EReal)
      = if 1280 * j + l.val = t.toNat then f l else 0 := by
  unfold Scalar.select
  exact if_congr (lane_match t ht j l.val hj l.isLt) rfl rfl

/-- THE LANE SUM of tile `j`: the entry at the target's lane when the target lies in the tile, else zero. -/
theorem lane_sum (t : BitVec 32) (ht : t.toNat < 32000) (j : Nat) (hj : j < 25) (f : Fin 1280 → EReal) :
    ∑ l : Fin 1280, Scalar.select (IntOp.cmpi .eq (BitVec.ofNat 32 l.val) (IntOp.subi t (Scalar.muli (BitVec.ofNat 32 j) 1280#32))) (f l) (0 : EReal)
      = if h : 1280 * j ≤ t.toNat ∧ t.toNat < 1280 * j + 1280 then f ⟨t.toNat - 1280 * j, by omega⟩ else 0 := by
  simp only [masked_lane t ht j hj f]
  by_cases h : 1280 * j ≤ t.toNat ∧ t.toNat < 1280 * j + 1280
  · rw [dif_pos h, Finset.sum_eq_single (⟨t.toNat - 1280 * j, by omega⟩ : Fin 1280)]
    · exact if_pos (by show 1280 * j + (t.toNat - 1280 * j) = t.toNat; omega)
    · intro l _ hl
      exact if_neg fun e => hl (Fin.ext (by show l.val = t.toNat - 1280 * j; omega))
    · intro hn; exact absurd (Finset.mem_univ _) hn
  · rw [dif_neg h]
    exact Finset.sum_eq_zero fun l _ => if_neg fun e => h ⟨by omega, by have := l.isLt; omega⟩

/-- THE TILE STEP. `f` is the tile's row of probabilities, equal to P at the target's lane if the target lies in the
    tile; the accumulator before the tile holds P W if the target lies in an earlier tile, else 0; after adding the lane
    sum times W it holds P W if the target lies in this tile or an earlier one, else 0. -/
theorem tile_step (t : BitVec 32) (ht : t.toNat < 32000) (j : Nat) (hj : j < 25) (f : Fin 1280 → EReal) (P W : EReal)
    (hf : ∀ l : Fin 1280, 1280 * j + l.val = t.toNat → f l = P) :
    (if t.toNat < 1280 * j then P * W else 0)
        + (∑ l : Fin 1280, Scalar.select (IntOp.cmpi .eq (BitVec.ofNat 32 l.val) (IntOp.subi t (Scalar.muli (BitVec.ofNat 32 j) 1280#32))) (f l) (0 : EReal)) * W
      = if t.toNat < 1280 * (j + 1) then P * W else 0 := by
  rw [lane_sum t ht j hj f]
  by_cases h1 : t.toNat < 1280 * j
  · rw [if_pos h1, dif_neg (by omega), if_pos (by omega), zero_mul, add_zero]
  · by_cases h2 : t.toNat < 1280 * (j + 1)
    · rw [if_neg h1, dif_pos ⟨by omega, by omega⟩, if_pos h2, zero_add,
        hf ⟨t.toNat - 1280 * j, by omega⟩ (by show 1280 * j + (t.toNat - 1280 * j) = t.toNat; omega)]
    · rw [if_neg h1, dif_neg (by omega), if_neg h2, zero_mul, add_zero]

end Cert.GanLoss

end
-- ==== Proof.Blocks.lean ====
/-
  The kernel's input blocks as pieces of the arrays the region finds.
  The grid has 8 x 25 points in row-major order: point t works on row block t / 25 and column tile t % 25. The
  probability window's block at t is rows 1024 (t / 25) … and columns 1280 (t % 25) … of the table; the target and reward
  windows' blocks are the same 1024 rows of their one-column arrays; the output window's block is slab t / 25.
-/
import proofs.«413421_j89008902242786_3_alg».proof.Proof.Gen.KernelIdeal.Frame
import proofs.«413421_j89008902242786_3_alg».proof.Proof.Loss
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

namespace Cert.KernelIdeal.Blocks

open Cert.KernelIdeal Cert.KernelIdeal.Gen
open Idealize.ShloMosaic Idealize.ShloMosaic.TcCoe Idealize.SL.Sem Idealize.ShloMosaic.Tactic Idealize.ShloMosaic.ValueIdx
open Idealize.ShloMosaic.Pipeline (Dat)

variable (m : (ℓ : Loc nD τ sig) → Buf (Elt Ideal) ℓ)

/-- The three arrays the region reads, as it finds them: the probability table, the clipped targets as a column, the
    rewards as a column. -/
abbrev parr (c : Dev nD) : S8192x32000.Idx → EReal := V m c main_arg0
abbrev garr (c : Dev nD) : S8192x1.Idx → BitVec 32 := V m c main_v1
abbrev warr (c : Dev nD) : S8192x1.Idx → EReal := V m c main_v2

/-- Their blocks at point `t`. -/
abbrev pblk (c : Dev nD) (t : Fin cfg0.N) : Vec Ideal S1024x1280 .f32 := iblk m c 0 t
abbrev gblk (c : Dev nD) (t : Fin cfg0.N) : Vec Ideal S1024x1 .i32 := iblk m c 1 t
abbrev wblk (c : Dev nD) (t : Fin cfg0.N) : Vec Ideal S1024x1 .f32 := iblk m c 2 t

theorem N200 : cfg0.N = 200 := N_0

/-- Row `r` of point `n`'s row block, among the 8192 rows. -/
def rowOf (n : ℕ) (hn : n < cfg0.N) (r : Fin 1024) : Fin 8192 :=
  ⟨1024 * (n / 25) + r.val, by have h := N200; omega⟩

/-- Lane `l` of point `n`'s column tile, among the 32000 columns. -/
def colAt (n : ℕ) (l : Fin 1280) : Fin 32000 :=
  ⟨1280 * (n % 25) + l.val, by have := l.isLt; have := Nat.mod_lt n (show 0 < 25 by decide); omega⟩

/-- The index maps and the body's second grid coordinate in closed form, decided over the 200 points. -/
theorem idx_facts : ∀ t : Fin cfg0.N,
    win0_0.index t (0 : Fin 2) = t.val / 25 ∧ win0_0.index t (1 : Fin 2) = t.val % 25
    ∧ win0_1.index t (0 : Fin 2) = t.val / 25 ∧ win0_1.index t (1 : Fin 2) = 0
    ∧ win0_2.index t (0 : Fin 2) = t.val / 25 ∧ win0_2.index t (1 : Fin 2) = 0
    ∧ win0_3.index t (0 : Fin 3) = t.val / 25 ∧ win0_3.index t (1 : Fin 3) = 0 ∧ win0_3.index t (2 : Fin 3) = 0
    ∧ ((grid0.coords t) (1 : Fin 2)).val = t.val % 25 :=
  (by decide +kernel : ∀ t : Fin grid0.N, _)

/-- The probability block at (r, l) is the table at (row r of the block, lane l of the tile). -/
theorem pblk_apply (c : Dev nD) (t : Fin cfg0.N) (r : Fin 1024) (l : Fin 1280) :
    pblk m c t (ix2 r l) = parr m c (ix2 (rowOf t.val t.isLt r) (colAt t.val l)) := by
  unfold pblk iblk
  rw [View.read_apply]
  show V m c main_arg0 _ = V m c main_arg0 _
  refine congrArg _ (funext fun a => Fin.ext ?_)
  match a with
  | ⟨0, _⟩ => show win0_0.index t 0 * 1024 + 1 * r.val = 1024 * (t.val / 25) + r.val; rw [(idx_facts t).1]; omega
  | ⟨1, _⟩ => show win0_0.index t 1 * 1280 + 1 * l.val = 1280 * (t.val % 25) + l.val; rw [(idx_facts t).2.1]; omega

/-- The target block at (r, 0) is the target column at the block's row r. -/
theorem gblk_apply (c : Dev nD) (t : Fin cfg0.N) (r : Fin 1024) :
    gblk m c t (ix2 r (0 : Fin 1)) = garr m c (ix2 (rowOf t.val t.isLt r) (0 : Fin 1)) := by
  unfold gblk iblk
  rw [View.read_apply]
  show V m c main_v1 _ = V m c main_v1 _
  refine congrArg _ (funext fun a => Fin.ext ?_)
  match a with
  | ⟨0, _⟩ => show win0_1.index t 0 * 1024 + 1 * r.val = 1024 * (t.val / 25) + r.val; rw [(idx_facts t).2.2.1]; omega
  | ⟨1, _⟩ => show win0_1.index t 1 * 1 + 1 * 0 = 0; rw [(idx_facts t).2.2.2.1]

/-- The reward block at (r, 0) is the reward column at the block's row r. -/
theorem wblk_apply (c : Dev nD) (t : Fin cfg0.N) (r : Fin 1024) :
    wblk m c t (ix2 r (0 : Fin 1)) = warr m c (ix2 (rowOf t.val t.isLt r) (0 : Fin 1)) := by
  unfold wblk iblk
  rw [View.read_apply]
  show V m c main_v2 _ = V m c main_v2 _
  refine congrArg _ (funext fun a => Fin.ext ?_)
  match a with
  | ⟨0, _⟩ => show win0_2.index t 0 * 1024 + 1 * r.val = 1024 * (t.val / 25) + r.val; rw [(idx_facts t).2.2.2.2.1]; omega
  | ⟨1, _⟩ => show win0_2.index t 1 * 1 + 1 * 0 = 0; rw [(idx_facts t).2.2.2.2.2.1]

end Cert.KernelIdeal.Blocks

end
-- ==== Proof.Invariant.lean ====
/-
  What the two carried arrays hold after every grid point, by induction on the point.
  The lane table holds the lane numbers from the first point on: the first tile of every row block stores them and no
  other tile touches the table. The accumulator's row r, after column tile j of its row block, holds the row's picked
  probability times its reward if the row's target lies in one of the tiles 0 … j, and zero otherwise: the first tile
  starts from the zeros it has just stored, every later tile from what the tile before left, and each adds the reward
  times its own lane sum, which is the picked probability exactly in the tile that holds the target.
  After the last tile (j = 24) every target below 32000 has been met.
-/
import proofs.«413421_j89008902242786_3_alg».proof.Proof.Gen.KernelIdeal.Frame
import proofs.«413421_j89008902242786_3_alg».proof.Proof.Loss
import proofs.«413421_j89008902242786_3_alg».proof.Proof.Pieces
import proofs.«413421_j89008902242786_3_alg».proof.Proof.Payload
import proofs.«413421_j89008902242786_3_alg».proof.Proof.Tile
import proofs.«413421_j89008902242786_3_alg».proof.Proof.Blocks
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

namespace Cert.KernelIdeal.Invariant

open Cert.KernelIdeal Cert.KernelIdeal.Gen
open Idealize.ShloMosaic Idealize.ShloMosaic.TcCoe Idealize.SL.Sem Idealize.ShloMosaic.Tactic Idealize.ShloMosaic.ValueIdx
open Idealize.ShloMosaic.Pipeline (Dat)
open Cert.KernelIdeal.Blocks Cert.KernelIdeal.Payload Cert.KernelIdeal.Pieces Cert.GanLoss

variable (m : (ℓ : Loc nD τ sig) → Buf (Elt Ideal) ℓ)

/-- Row R's target word, picked probability and reward, off the arrays the region finds. -/
abbrev tgt (c : Dev nD) (R : Fin 8192) : BitVec 32 := garr m c (ix2 R (0 : Fin 1))
abbrev picked (c : Dev nD) (R : Fin 8192) : EReal := parr m c (ix2 R (colOf (tgt m c R)))
abbrev rew (c : Dev nD) (R : Fin 8192) : EReal := warr m c (ix2 R (0 : Fin 1))

/-- The accumulator's row r BEFORE column tile j of the row block of point n: the row's term once an earlier tile held
    its target. -/
def accBefore (c : Dev nD) (n : ℕ) (hn : n < cfg0.N) (j : ℕ) (r : Fin 1024) : EReal :=
  if (tgt m c (rowOf n hn r)).toNat < 1280 * j then picked m c (rowOf n hn r) * rew m c (rowOf n hn r) else 0

/-- ONE POINT'S UPDATE: from the lane numbers and an accumulator at `accBefore … (t % 25)`, the update leaves
    `accBefore … (t % 25 + 1)` in row r. -/
theorem step (c : Dev nD) (hg : ∀ R : Fin 8192, (tgt m c R).toNat < 32000) (t : Fin cfg0.N) (xa : Vec Ideal S1024x1 .f32)
    (r : Fin 1024) (hxa : xa (ix2 r (0 : Fin 1)) = accBefore m c t.val t.isLt (t.val % 25) r) :
    k0_pay3 (grid0.coords t) (pblk m c t) (gblk m c t) (wblk m c t) k0_pay2 xa (ix2 r (0 : Fin 1))
      = accBefore m c t.val t.isLt (t.val % 25 + 1) r := by
  rw [update_apply]
  simp only [lanes_apply]
  rw [gblk_apply, wblk_apply, hxa, (idx_facts t).2.2.2.2.2.2.2.2.2]
  unfold accBefore
  refine tile_step (tgt m c (rowOf t.val t.isLt r)) (hg _) (t.val % 25) (Nat.mod_lt _ (by decide))
    (fun l => pblk m c t (ix2 r l)) (picked m c (rowOf t.val t.isLt r)) (rew m c (rowOf t.val t.isLt r)) (fun l hl => ?_)
  rw [pblk_apply]
  refine congrArg (parr m c) (congrArg (ix2 (rowOf t.val t.isLt r)) (Fin.ext ?_))
  show 1280 * (t.val % 25) + l.val = (colOf (tgt m c (rowOf t.val t.isLt r))).val
  rw [colOf_val (hg _)]
  exact hl

/-- What the first tile of a row block leaves in the carried pair. -/
theorem point_A (c : Dev nD) (t : Fin cfg0.N) (h0 : t.val % 25 = 0) (h1 : ¬t.val % 25 = 24) :
    (outsAt0 m c t.val t.isLt).2.1 = k0_pay3 (grid0.coords t) (pblk m c t) (gblk m c t) (wblk m c t) k0_pay2 (k0_pay1 (F := Ideal))
      ∧ (outsAt0 m c t.val t.isLt).2.2 = k0_pay2 := by
  rw [outsAt0_A m c t h0 h1]
  dsimp only
  exact ⟨acc_A (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (pblk m c t) (gblk m c t) (wblk m c t),
    iota_A (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (pblk m c t) (gblk m c t) (wblk m c t)⟩

/-- What a middle tile leaves: the update over what the point before left, the lane table as it was. -/
theorem point_B (c : Dev nD) (t : Fin cfg0.N) (h0 : ¬t.val % 25 = 0) (h1 : ¬t.val % 25 = 24) :
    (outsAt0 m c t.val t.isLt).2.1 = k0_pay3 (grid0.coords t) (pblk m c t) (gblk m c t) (wblk m c t) (outsAt0 m c (t.val - 1) (Nat.lt_of_le_of_lt (Nat.sub_le _ _) t.isLt)).2.2 (outsAt0 m c (t.val - 1) (Nat.lt_of_le_of_lt (Nat.sub_le _ _) t.isLt)).2.1
      ∧ (outsAt0 m c t.val t.isLt).2.2 = (outsAt0 m c (t.val - 1) (Nat.lt_of_le_of_lt (Nat.sub_le _ _) t.isLt)).2.2 := by
  rw [outsAt0_B m c t h0 h1]
  dsimp only
  exact ⟨acc_B (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (pblk m c t) (gblk m c t) (wblk m c t) (outsAt0 m c (t.val - 1) (Nat.lt_of_le_of_lt (Nat.sub_le _ _) t.isLt)).2.1 (outsAt0 m c (t.val - 1) (Nat.lt_of_le_of_lt (Nat.sub_le _ _) t.isLt)).2.2, rfl⟩

/-- What the last tile leaves: the same in the carried pair, and in the output block the total of the updated accumulator. -/
theorem point_C (c : Dev nD) (t : Fin cfg0.N) (h0 : ¬t.val % 25 = 0) (h1 : t.val % 25 = 24) :
    (outsAt0 m c t.val t.isLt).2.1 = k0_pay3 (grid0.coords t) (pblk m c t) (gblk m c t) (wblk m c t) (outsAt0 m c (t.val - 1) (Nat.lt_of_le_of_lt (Nat.sub_le _ _) t.isLt)).2.2 (outsAt0 m c (t.val - 1) (Nat.lt_of_le_of_lt (Nat.sub_le _ _) t.isLt)).2.1
      ∧ (outsAt0 m c t.val t.isLt).2.2 = (outsAt0 m c (t.val - 1) (Nat.lt_of_le_of_lt (Nat.sub_le _ _) t.isLt)).2.2
      ∧ (outsAt0 m c t.val t.isLt).1 = k0_pay4 (k0_pay3 (grid0.coords t) (pblk m c t) (gblk m c t) (wblk m c t) (outsAt0 m c (t.val - 1) (Nat.lt_of_le_of_lt (Nat.sub_le _ _) t.isLt)).2.2 (outsAt0 m c (t.val - 1) (Nat.lt_of_le_of_lt (Nat.sub_le _ _) t.isLt)).2.1) := by
  rw [outsAt0_C m c t h0 h1]
  dsimp only
  exact ⟨acc_C (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (pblk m c t) (gblk m c t) (wblk m c t) (outsAt0 m c (t.val - 1) (Nat.lt_of_le_of_lt (Nat.sub_le _ _) t.isLt)).2.1 (outsAt0 m c (t.val - 1) (Nat.lt_of_le_of_lt (Nat.sub_le _ _) t.isLt)).2.2, rfl,
    out_C (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (pblk m c t) (gblk m c t) (wblk m c t) (outsAt0 m c (t.val - 1) (Nat.lt_of_le_of_lt (Nat.sub_le _ _) t.isLt)).2.1 (outsAt0 m c (t.val - 1) (Nat.lt_of_le_of_lt (Nat.sub_le _ _) t.isLt)).2.2⟩

/-- THE INVARIANT after point n: the lane table holds the lane numbers, and the accumulator's row r is
    `accBefore … (n % 25 + 1)`. -/
theorem carried (c : Dev nD) (hg : ∀ R : Fin 8192, (tgt m c R).toNat < 32000) :
    ∀ (n : ℕ) (hn : n < cfg0.N), (outsAt0 m c n hn).2.2 = k0_pay2
      ∧ ∀ r : Fin 1024, (outsAt0 m c n hn).2.1 (ix2 r (0 : Fin 1)) = accBefore m c n hn (n % 25 + 1) r := by
  intro n
  induction n with
  | zero =>
    intro hn
    obtain ⟨eA, eI⟩ := point_A m c ⟨0, hn⟩ rfl (by show ¬(0 : ℕ) % 25 = 24; omega)
    refine ⟨eI, fun r => ?_⟩
    rw [show (outsAt0 m c 0 hn).2.1 = _ from eA]
    exact step m c hg ⟨0, hn⟩ (k0_pay1 (F := Ideal)) r ((zeros_apply _).trans (if_neg (by show ¬_ < 1280 * (0 % 25); omega)).symm)
  | succ n ih =>
    intro hn
    have hN := N200
    obtain ⟨ihI, ihA⟩ := ih (Nat.lt_of_succ_lt hn)
    -- the row block of point n + 1 is that of point n unless n + 1 opens a new one
    have hrow : ¬(n + 1) % 25 = 0 → ∀ r : Fin 1024, rowOf (n + 1) hn r = rowOf n (Nat.lt_of_succ_lt hn) r := fun h r =>
      Fin.ext (by show 1024 * ((n + 1) / 25) + r.val = 1024 * (n / 25) + r.val; omega)
    have hprev : ¬(n + 1) % 25 = 0 → ∀ r : Fin 1024,
        (outsAt0 m c n (Nat.lt_of_succ_lt hn)).2.1 (ix2 r (0 : Fin 1)) = accBefore m c (n + 1) hn ((n + 1) % 25) r := fun h r => by
      rw [ihA r]; unfold accBefore; rw [hrow h r, show (n + 1) % 25 = n % 25 + 1 by omega]
    by_cases h0 : (n + 1) % 25 = 0
    · obtain ⟨eA, eI⟩ := point_A m c ⟨n + 1, hn⟩ h0 (by show ¬(n + 1) % 25 = 24; omega)
      refine ⟨eI, fun r => ?_⟩
      rw [show (outsAt0 m c (n + 1) hn).2.1 = _ from eA]
      exact step m c hg ⟨n + 1, hn⟩ (k0_pay1 (F := Ideal)) r ((zeros_apply _).trans (if_neg (by show ¬_ < 1280 * ((n + 1) % 25); omega)).symm)
    · by_cases h1 : (n + 1) % 25 = 24
      · have e := point_C m c ⟨n + 1, hn⟩ h0 h1
        change (outsAt0 m c (n + 1) hn).2.1 = k0_pay3 (grid0.coords ⟨n + 1, hn⟩) (pblk m c ⟨n + 1, hn⟩) (gblk m c ⟨n + 1, hn⟩) (wblk m c ⟨n + 1, hn⟩) (outsAt0 m c n (Nat.lt_of_succ_lt hn)).2.2 (outsAt0 m c n (Nat.lt_of_succ_lt hn)).2.1
          ∧ (outsAt0 m c (n + 1) hn).2.2 = (outsAt0 m c n (Nat.lt_of_succ_lt hn)).2.2 ∧ _ at e
        obtain ⟨eA, eI, -⟩ := e
        refine ⟨eI.trans ihI, fun r => ?_⟩
        rw [eA, ihI]
        exact step m c hg ⟨n + 1, hn⟩ _ r (hprev h0 r)
      · have e := point_B m c ⟨n + 1, hn⟩ h0 h1
        change (outsAt0 m c (n + 1) hn).2.1 = k0_pay3 (grid0.coords ⟨n + 1, hn⟩) (pblk m c ⟨n + 1, hn⟩) (gblk m c ⟨n + 1, hn⟩) (wblk m c ⟨n + 1, hn⟩) (outsAt0 m c n (Nat.lt_of_succ_lt hn)).2.2 (outsAt0 m c n (Nat.lt_of_succ_lt hn)).2.1
          ∧ (outsAt0 m c (n + 1) hn).2.2 = (outsAt0 m c n (Nat.lt_of_succ_lt hn)).2.2 at e
        obtain ⟨eA, eI⟩ := e
        refine ⟨eI.trans ihI, fun r => ?_⟩
        rw [eA, ihI]
        exact step m c hg ⟨n + 1, hn⟩ _ r (hprev h0 r)

end Cert.KernelIdeal.Invariant

end
-- ==== Proof.Slabs.lean ====
/-
  The output array [8 x 8 x 128] after the region: slab k holds, at every entry, the total over row block k's 1024 rows of
  picked probability times reward. Only the last column tile of a row block stores into the output block, and only
  there is the block written back; the eight such points' blocks are the eight slabs, which tile the array.
-/
import proofs.«413421_j89008902242786_3_alg».proof.Proof.Gen.KernelIdeal.Frame
import proofs.«413421_j89008902242786_3_alg».proof.Proof.Loss
import proofs.«413421_j89008902242786_3_alg».proof.Proof.Invariant
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

namespace Cert.KernelIdeal.Slabs

open Cert.KernelIdeal Cert.KernelIdeal.Gen
open Idealize.ShloMosaic Idealize.ShloMosaic.TcCoe Idealize.SL.Sem Idealize.ShloMosaic.Tactic Idealize.ShloMosaic.ValueIdx
open Idealize.ShloMosaic.Pipeline (Dat)
open Cert.KernelIdeal.Blocks Cert.KernelIdeal.Payload Cert.KernelIdeal.Invariant Cert.GanLoss

variable (m : (ℓ : Loc nD τ sig) → Buf (Elt Ideal) ℓ)

/-- Row block k's total. -/
def blockTotal (c : Dev nD) (k : Fin 8) : EReal :=
  ∑ r : Fin 1024, picked m c ⟨1024 * k.val + r.val, by omega⟩ * rew m c ⟨1024 * k.val + r.val, by omega⟩

/-- What the output array ends holding. -/
abbrev slabs (c : Dev nD) : S8x8x128.Idx → EReal := fun i => blockTotal m c (i 0)

/-- A sum over the indices of a one-column array is the sum over its rows. -/
theorem sum_col (f : S1024x1.Idx → EReal) : ∑ q, f q = ∑ r : Fin 1024, f (ix2 r (0 : Fin 1)) := by
  rw [sum_idx2]
  exact Finset.sum_congr rfl fun r _ => Fin.sum_univ_one _

/-- At a last tile the output block holds, at every entry, its row block's total: every target lies below
    1280 * 25 = 32000, so every row's term has been added. -/
theorem slab_at (c : Dev nD) (hg : ∀ R : Fin 8192, (tgt m c R).toNat < 32000) (t : Fin cfg0.N) (h1 : t.val % 25 = 24)
    (y : S1x8x128.Idx) :
    (outsAt0 m c t.val t.isLt).1 y = ∑ r : Fin 1024, picked m c (rowOf t.val t.isLt r) * rew m c (rowOf t.val t.isLt r) := by
  obtain ⟨eA, -, eO⟩ := point_C m c t (by omega) h1
  rw [eO, ← eA, total_apply, sum_col]
  refine Finset.sum_congr rfl fun r _ => ?_
  rw [(carried m c hg t.val t.isLt).2 r]
  unfold accBefore
  exact if_pos (by have := hg (rowOf t.val t.isLt r); omega)

/-- WHAT A WRITING-BACK POINT WRITES is its slab of `slabs`. -/
theorem flushed_eq (c : Dev nD) (hg : ∀ R : Fin 8192, (tgt m c R).toNat < 32000) (t : Fin cfg0.N)
    (hf : (cfg0.win 3).flush t = true) :
    (dats m 0 c).flushed 3 t = ((cfg0.win 3).blk t).view.read (Elt Ideal) (slabs m c) := by
  have h1 : t.val % 25 = 24 := (flush0_3 t).mp hf
  show (cfg0.win 3).cut (grid0.coords t) ((dats m 0 c).after 3 t) = _
  rw [after0_3]
  funext y
  rw [View.read_apply]
  show (outsAt0 m c t.val t.isLt).1 y = blockTotal m c ((((cfg0.win 3).blk t).view.emb y) 0)
  rw [slab_at m c hg t h1 y]
  unfold blockTotal
  refine Finset.sum_congr rfl fun r _ => ?_
  have e : rowOf t.val t.isLt r = ⟨1024 * ((((cfg0.win 3).blk t).view.emb y) 0).val + r.val, by
      have h8 : ((((cfg0.win 3).blk t).view.emb y) 0).val < 8 := ((((cfg0.win 3).blk t).view.emb y) 0).isLt; omega⟩ := Fin.ext (by
    show 1024 * (t.val / 25) + r.val = 1024 * (win0_3.index t (0 : Fin 3) * 1 + 1 * (y 0).val) + r.val
    have hy : (y 0).val < 1 := (y 0).isLt
    rw [(idx_facts t).2.2.2.2.2.2.1]; omega)
  rw [e]

/-- An index of the array is in point `t`'s block iff each coordinate is in the block's range on its axis. -/
theorem mem_blk (t : Fin cfg0.N) (i : S8x8x128.Idx) :
    i ∈ ((cfg0.win 3).blk t).view.set ↔ ∀ a : Fin 3, win0_3.index t a * S1x8x128.size a ≤ (i a).val
      ∧ (i a).val < win0_3.index t a * S1x8x128.size a + S1x8x128.size a := by
  show i ∈ ((View.whole main_v3).slice (win0_3.rect t)).set ↔ _
  rw [View.set_slice_whole, Rect.mem_set_unit]
  exact Iff.rfl

/-- Slab k is the block of the last tile of row block k, the point 25 k + 24. -/
theorem cover (i : S8x8x128.Idx) :
    ∃ t : Fin cfg0.N, (cfg0.win 3).flush t = true ∧ i ∈ ((cfg0.win 3).blk t).view.set := by
  have hN := N200
  have hN' : grid0.N = 200 := N_0
  have h0 : (i 0).val < 8 := (i 0).isLt
  have h1 : (i 1).val < 8 := (i 1).isLt
  have h2 : (i 2).val < 128 := (i 2).isLt
  refine ⟨⟨25 * (i 0).val + 24, by omega⟩, (flush0_3 _).mpr (by show (25 * (i 0).val + 24) % 25 = 24; omega), ?_⟩
  rw [mem_blk]
  obtain ⟨-, -, -, -, -, -, e0, e1, e2, -⟩ := idx_facts ⟨25 * (i 0).val + 24, by omega⟩
  have e0' : win0_3.index ⟨25 * (i 0).val + 24, by omega⟩ (0 : Fin 3) = (i 0).val := by rw [e0]; show (25 * (i 0).val + 24) / 25 = _; omega
  intro a
  match a with
  | ⟨0, _⟩ => show win0_3.index _ (0 : Fin 3) * 1 ≤ (i 0).val ∧ (i 0).val < win0_3.index _ (0 : Fin 3) * 1 + 1; rw [e0']; omega
  | ⟨1, _⟩ => show win0_3.index _ (1 : Fin 3) * 8 ≤ (i 1).val ∧ (i 1).val < win0_3.index _ (1 : Fin 3) * 8 + 8; rw [e1]; omega
  | ⟨2, _⟩ => show win0_3.index _ (2 : Fin 3) * 128 ≤ (i 2).val ∧ (i 2).val < win0_3.index _ (2 : Fin 3) * 128 + 128; rw [e2]; omega

/-- THE OUTPUT ARRAY after the region. -/
theorem final (c : Dev nD) (hg : ∀ R : Fin 8192, (tgt m c R).toNat < 32000) : (dats m 0 c).arrAt 3 cfg0.N = slabs m c :=
  (dats m 0 c).arrAt_eq_of_cover 3 (slabs m c) (flushed_eq m c hg) (cover)

end Cert.KernelIdeal.Slabs

end
-- ==== Proof.HostSides.lean ====
/-
  What the program's host lines do around its one kernel region, over the extended reals. Before the region: the
  target vector is clipped element by element into [0, 31999] and recast as a column [8192, 1], and the reward vector
  is recast likewise; a target word that already names one of the table's 32000 columns passes the clip unchanged, so
  row R of each column is the launch's own element R. After the region: the [8, 8, 128] array of block partials is cut
  to its corner column, recast as a vector of 8, summed from zero and negated, so the result is minus the sum of the
  eight elements (k, 0, 0).
-/
import proofs.«413421_j89008902242786_3_alg».proof.Proof.Gen.KernelIdeal.Frame
import proofs.«413421_j89008902242786_3_alg».proof.Proof.Loss
import Idealize.ShloMosaic.Lib.Pipeline.Value
import Idealize.ShloMosaic.Lib.StableHlo.Run
import Idealize.ShloMosaic.Lib.StableHlo.Predicate
import Idealize.ShloMosaic.Lib.ValueIdx
import Idealize.ShloMosaic.Lib.IdealHost
import Idealize.ShloMosaic.PureOps.Ideal.Laws

noncomputable section

namespace Cert.KernelIdeal.HostSides

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ)

/-! ## Before the region -/

/-- The clip of a word already inside the table's column range is the word: the signed maximum with 0 and the signed
    minimum with 31999 both return it. -/
theorem clip_word (w : BitVec 32) (hw : w.toNat < 32000) :
    IntOp.minsi 31999#32 (IntOp.maxsi 0#32 w) = w := by
  have hti : w.toInt = w.toNat := StableHlo.Predicate.toInt_eq_toNat_of_lt (by omega)
  have h0 : (0#32 : BitVec 32).toInt = 0 := by decide
  have hh : (31999#32 : BitVec 32).toInt = 31999 := by decide
  have hmax : IntOp.maxsi 0#32 w = w := by
    unfold IntOp.maxsi
    rw [if_neg]
    simp only [BitVec.slt, hti, h0, decide_eq_true_eq]
    omega
  rw [hmax]
  unfold IntOp.minsi
  rw [if_neg]
  simp only [BitVec.slt, hti, hh, decide_eq_true_eq]
  omega

/-- A vector of 8192 elements recast as a column [8192, 1], read at row R, is the vector at R. -/
theorem column_read {α : Type} (x : S8192.Idx → α) (R : Fin 8192) :
    shapeCast S8192x1 x shapeCasts_S8192_S8192x1 (ix2 R (0 : Fin 1)) = x (ix1 R) :=
  shapeCast_apply x shapeCasts_S8192_S8192x1 (ix2 R (0 : Fin 1)) (ix1 R)
    (by rw [Shape.rowMajor_val_one, Shape.rowMajor_val_two]; show R.val = R.val * 1 + 0; omega)

/-- The clipped target vector recast as a column, read at row R whose target word is in range: the word. -/
theorem clip_column_read (t : S8192.Idx → BitVec 32) (R : Fin 8192) (h : (t (ix1 R)).toNat < 32000) :
    shapeCast S8192x1
        (minsi (broadcastInDim S8192 ![] bcast_S_S8192 (constantI S_ 32 31999#32))
          (maxsi (broadcastInDim S8192 ![] bcast_S_S8192 (constantI S_ 32 0#32)) t))
        shapeCasts_S8192_S8192x1 (ix2 R (0 : Fin 1)) = t (ix1 R) := by
  rw [column_read]
  show IntOp.minsi (broadcastInDim S8192 ![] bcast_S_S8192 (constantI S_ 32 31999#32) (ix1 R))
      (IntOp.maxsi (broadcastInDim S8192 ![] bcast_S_S8192 (constantI S_ 32 0#32) (ix1 R)) (t (ix1 R))) = t (ix1 R)
  rw [broadcastInDim_scalar_apply, broadcastInDim_scalar_apply]
  exact clip_word _ h

/-- What the host lines before the region leave in the clipped-target column: the launch's target vector, clipped
    element by element into [0, 31999] and recast [8192] → [8192, 1]. -/
theorem V_main_v1_eq (c : Dev nD) :
    (V m c main_v1 : S8192x1.Idx → BitVec 32)
      = shapeCast S8192x1
          (minsi (broadcastInDim S8192 ![] bcast_S_S8192 (constantI S_ 32 31999#32))
            (maxsi (broadcastInDim S8192 ![] bcast_S_S8192 (constantI S_ 32 0#32))
              (m ((c : Thread nD τ).loc main_arg1) : S8192.Idx → BitVec 32)))
          shapeCasts_S8192_S8192x1 := by
  dsimp only [Gen.V, Gen.V0]
  simp only [Gen.hostOps0, Gen.hostOps0_1, Gen.hostOps0_2, List.flatten_cons, List.flatten_nil, List.append_nil,
    List.cons_append, List.nil_append]
  after_results
  rfl

/-- What they leave in the reward column: the launch's reward vector recast [8192] → [8192, 1]. -/
theorem V_main_v2_eq (c : Dev nD) :
    (V m c main_v2 : S8192x1.Idx → EReal)
      = shapeCast S8192x1 (m ((c : Thread nD τ).loc main_arg2) : S8192.Idx → EReal) shapeCasts_S8192_S8192x1 := by
  dsimp only [Gen.V, Gen.V0]
  simp only [Gen.hostOps0, Gen.hostOps0_1, Gen.hostOps0_2, List.flatten_cons, List.flatten_nil, List.append_nil,
    List.cons_append, List.nil_append]
  after_results
  rfl

/-- Row R of the clipped-target column the region finds is the launch's target word of row R, when that word names a
    column of the table. -/
theorem V_main_v1_apply (c : Dev nD) (R : Fin 8192) (h : (m ((c : Thread nD τ).loc main_arg1) (ix1 R)).toNat < 32000) :
    (V m c main_v1 : S8192x1.Idx → BitVec 32) (ix2 R (0 : Fin 1)) = m ((c : Thread nD τ).loc main_arg1) (ix1 R) := by
  rw [V_main_v1_eq]
  exact clip_column_read _ R h

/-- Row R of the reward column the region finds is the launch's reward of row R. -/
theorem V_main_v2_apply (c : Dev nD) (R : Fin 8192) :
    (V m c main_v2 : S8192x1.Idx → EReal) (ix2 R (0 : Fin 1)) = m ((c : Thread nD τ).loc main_arg2) (ix1 R) := by
  rw [V_main_v2_eq]
  exact column_read _ R

/-! ## After the region -/

/-- The [8, 8, 128] array of block partials cut to its corner column [8, 1, 1] and recast as a vector of 8, read at k:
    the array's element (k, 0, 0). -/
theorem corner_read {α : Type} (A : S8x8x128.Idx → α) (k : Fin 8) :
    shapeCast S8 (extractStridedSlice S8x1x1 ![0, 0, 0] A slices_S8x8x128_S8x1x1_0_0_0) shapeCasts_S8x1x1_S8 (ix1 k)
      = A (ix3 k (0 : Fin 8) (0 : Fin 128)) := by
  rw [shapeCast_apply _ shapeCasts_S8x1x1_S8 (ix1 k) (ix3 k (0 : Fin 1) (0 : Fin 1))
    (by rw [Shape.rowMajor_val_one, Shape.rowMajor_val_three]; show (k.val * 1 + 0) * 1 + 0 = k.val; omega)]
  exact extractStridedSlice_apply _ A slices_S8x8x128_S8x1x1_0_0_0 (ix3 k (0 : Fin 1) (0 : Fin 1))
    (ix3 k (0 : Fin 8) (0 : Fin 128)) (fun a => match a with
      | ⟨0, _⟩ => by show k.val = 0 + k.val; omega
      | ⟨1, _⟩ => by show 0 = 0 + 0; rfl
      | ⟨2, _⟩ => by show 0 = 0 + 0; rfl)

/-- The host lines after the region on an array A of block partials, over the extended reals: minus the sum, from
    zero, of the eight corner elements A (k, 0, 0). -/
theorem tail_value (A : S8x8x128.Idx → EReal) :
    (Host.negf (F := Ideal) (φ := .f32)
        (Host.reduceAdd (F := Ideal) (φ := .f32)
          (shapeCast S8 (extractStridedSlice S8x1x1 ![0, 0, 0] A slices_S8x8x128_S8x1x1_0_0_0) shapeCasts_S8x1x1_S8)
          (constant (F := Ideal) S_ .f32 0x00000000#32) reducesTo_S8_S_d0 h_S_) : S_.Idx → EReal)
      = fun _ => -(0 + ∑ k : Fin 8, A (ix3 k (0 : Fin 8) (0 : Fin 128))) := by
  funext j
  show -(Ideal.hostReduceAdd reducesTo_S8_S_d0
      (shapeCast S8 (extractStridedSlice S8x1x1 ![0, 0, 0] A slices_S8x8x128_S8x1x1_0_0_0) shapeCasts_S8x1x1_S8)
      (Ideal.ofBits .f32 0x00000000#32) j) = _
  rw [Ideal.hostReduceAdd_total reducesTo_S8_S_d0 (fun b => b.elim0), Ideal.ofBits_zero_f32, Cert.GanLoss.sum_idx1]
  exact congrArg (fun s => -(0 + s)) (Finset.sum_congr rfl fun k _ => corner_read A k)

/-- The program's result: the host lines after the region, run from the region's exit contents — the output array at
    A —, leave in the result buffer minus the sum, from zero, of A's eight corner elements. -/
theorem tail_main_v7 (c : Dev nD) (A : S8x8x128.Idx → EReal) (hA : (dats m 0 c).arrAt 3 cfg0.N = A) :
    Pipeline.afterTail₀ cfgs (dats m) 0 (V0 m) [hostOps1] c main_v7
      = fun _ => -(0 + ∑ k : Fin 8, A (ix3 k (0 : Fin 8) (0 : Fin 128))) := by
  unfold Pipeline.afterTail₀
  show StableHlo.after hostOps1 _ (Proc.devRef .tc main_v7) = _
  after_results
  have hW : Pipeline.withArrays (cfgs 0).spec c (V0 m c) (fun w => (dats m 0 c).arrAt w (cfgs 0).N)
      (Proc.devRef .tc main_v3) = A :=
    (Pipeline.withArrays_arr spec0 launch0.win.arr_inj c _ _ 3).trans hA
  rw [hW]
  exact tail_value A

end Cert.KernelIdeal.HostSides

end
-- ==== Proof.KernelLoss.lean ====
/-
  The kernel program's run, read: its result is the loss of its three arguments, which it leaves unchanged.
  The region leaves in the output array the eight row blocks' totals; the host lines after it sum the eight corner
  entries from zero and negate. Regrouping the 8192 rows into 8 blocks of 1024 makes that the loss, once each row's
  clipped target is the launch's own target word, which holds for every target below 32000.
-/
import proofs.«413421_j89008902242786_3_alg».proof.Proof.Gen.KernelIdeal.Frame
import proofs.«413421_j89008902242786_3_alg».proof.Proof.Loss
import proofs.«413421_j89008902242786_3_alg».proof.Proof.Slabs
import proofs.«413421_j89008902242786_3_alg».proof.Proof.HostSides
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

namespace Cert.KernelIdeal.KernelLoss

open Cert.KernelIdeal Cert.KernelIdeal.Gen
open Idealize.ShloMosaic Idealize.ShloMosaic.TcCoe Idealize.SL.Sem Idealize.ShloMosaic.Tactic Idealize.ShloMosaic.ValueIdx
open Idealize.ShloMosaic.Pipeline (Dat)
open Cert.KernelIdeal.Blocks Cert.KernelIdeal.Invariant Cert.KernelIdeal.Slabs Cert.KernelIdeal.HostSides Cert.GanLoss

variable (m : (ℓ : Loc nD τ sig) → Buf (Elt Ideal) ℓ) (ρ : Dev nD → PrngReg)

/-- With every launched target below 32000, the region finds each row's target word as launched, -/
theorem tgt_eq (c : Dev nD) (h : ∀ R : Fin 8192, (m ((c : Thread nD τ).loc main_arg1) (ix1 R)).toNat < 32000) (R : Fin 8192) :
    tgt m c R = m ((c : Thread nD τ).loc main_arg1) (ix1 R) :=
  V_main_v1_apply m c R (h R)

/-- so below 32000. -/
theorem tgt_lt (c : Dev nD) (h : ∀ R : Fin 8192, (m ((c : Thread nD τ).loc main_arg1) (ix1 R)).toNat < 32000) (R : Fin 8192) :
    (tgt m c R).toNat < 32000 := by
  rw [tgt_eq m c h R]; exact h R

/-- The eight corner entries of the output array add up to the sum of the 8192 rows' terms. -/
theorem corner_sum (c : Dev nD) (h : ∀ R : Fin 8192, (m ((c : Thread nD τ).loc main_arg1) (ix1 R)).toNat < 32000) :
    ∑ k : Fin 8, slabs m c (ix3 k (0 : Fin 8) (0 : Fin 128))
      = ∑ R : Fin 8192, term (m ((c : Thread nD τ).loc main_arg0)) (m ((c : Thread nD τ).loc main_arg1)) (m ((c : Thread nD τ).loc main_arg2)) R := by
  rw [sum_blocks]
  refine Finset.sum_congr rfl fun k _ => ?_
  show blockTotal m c k = _
  unfold blockTotal
  refine Finset.sum_congr rfl fun r _ => ?_
  unfold term
  show parr m c (ix2 _ (colOf (tgt m c _))) * warr m c (ix2 _ (0 : Fin 1)) = _
  rw [tgt_eq m c h, show warr m c (ix2 _ (0 : Fin 1)) = _ from V_main_v2_apply m c _,
    show parr m c = m ((c : Thread nD τ).loc main_arg0) from V_main_arg0 m c]

/-- THE RUN, READ: every weakly fair execution ends with the result at the loss of the arguments, which are unchanged. -/
theorem run (h : ∀ (c : Dev nD) (R : Fin 8192), (m ((c : Thread nD τ).loc main_arg1) (ix1 R)).toNat < 32000) :
    θ_run defs (onTc (τ := τ) (main (F := Ideal))) ⟨m, fun _ => 0, ρ⟩ fun r => ∀ c : Dev nD,
      r.2.mem ((c.tc : Thread nD τ).loc main_v7)
          = (fun _ => loss (m ((c.tc : Thread nD τ).loc main_arg0)) (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ hr c =>
    ⟨((hr c).2 main_v7 (Pipeline.mem_restRefs_of main_v7 (by decide) (by decide))).trans
        ((tail_main_v7 m c _ (final m c (tgt_lt m c (h c)))).trans (by
          funext _; unfold loss; rw [corner_sum m c (h c)])),
      ((hr c).1 0).trans (((dats m 0 c).arrAt_in 0 rfl _).trans ((A_eq m c 0).trans (V_main_arg0 m c))),
      ((hr c).2 main_arg1 (Pipeline.mem_restRefs_of main_arg1 (by decide) (by decide))).trans (W_main_arg1 m (dats m) c),
      ((hr c).2 main_arg2 (Pipeline.mem_restRefs_of main_arg2 (by decide) (by decide))).trans (W_main_arg2 m (dats m) c)⟩)
    (run_main m ρ)

end Cert.KernelIdeal.KernelLoss

end
-- ==== Proof.RefLoss.lean ====
/-
  The reference's result is the loss. The reference program gathers, for each of the 8192 rows, the probability at the
  row's target column (jnp's take_along_axis: a negative index is shifted up by 32000, an index outside 0 … 31999 gives
  NaN, the gather itself clamps), multiplies by the row's reward, sums the products from zero and negates the sum. For
  target words below 32000 nothing is shifted, nothing is NaN-filled and the clamp is the identity, so the result is the
  common specification's loss.
-/
import proofs.«413421_j89008902242786_3_alg».proof.Proof.Gen.ReferenceIdeal.Read
import proofs.«413421_j89008902242786_3_alg».proof.Proof.Loss
import Idealize.ShloMosaic.Lib.ReduceAll
import Idealize.ShloMosaic.Lib.StableHlo.Predicate
import Idealize.ShloMosaic.Lib.ValueIdx
import Idealize.ShloMosaic.PureOps.Ideal.Laws

noncomputable section

namespace Cert.ReferenceIdeal.RefLoss

open Cert.ReferenceIdeal Cert.ReferenceIdeal.Gen Cert.ReferenceIdeal.Read Idealize.ShloMosaic Idealize.ShloMosaic.ValueIdx
open Cert.GanLoss

/-! ## A reduction by and over ones -/

/-- A left fold by and, started at 1, over words that are all 1 is 1. -/
theorem foldl_andi_ones {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a (List.mem_cons_self ..), show IntOp.andi 1#1 1#1 = 1#1 from by decide]
    exact foldl_andi_ones f l (fun n hn => h n (List.mem_cons_of_mem _ hn))

/-- A reduce by and, from an initial 1, of an array that is 1 everywhere is 1 everywhere. -/
theorem reduce_andi_ones {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1)
    (j : t.Idx) : Host.reduce IntOp.andi x init h hu j = 1#1 := by
  rw [Host.reduce_eq_foldl, hinit]
  exact foldl_andi_ones x _ (fun i _ => hx i)

/-! ## Words below 32000 -/

/-- A word below 32000 is not negative: the index shift leaves it alone. -/
theorem shift_id {t : BitVec 32} (ht : t.toNat < 32000) :
    Scalar.select (IntOp.cmpi .slt t 0#32) (IntOp.addi t 32000#32) t = t := by
  have hn : ¬ IntOp.cmpi .slt t 0#32 = 1#1 := by
    rw [StableHlo.Predicate.slt_iff_toNat (by omega) (by decide)]
    simp
  rw [eq_zero_of_ne_one hn, select_zero]

/-- A word below 32000 passes the range test 0 ≤ t ≤ 31999. -/
theorem inrange_one {t : BitVec 32} (ht : t.toNat < 32000) :
    IntOp.andi (IntOp.cmpi .sge t 0#32) (IntOp.cmpi .sle t 31999#32) = 1#1 := by
  rw [IntOp.andi_eq_one]
  refine ⟨(StableHlo.Predicate.sge_iff_toNat (by omega) (by decide)).2 (by simp), ?_⟩
  refine (StableHlo.Predicate.sle_iff_toNat (by omega) (by decide)).2 ?_
  show t.toNat ≤ 31999
  omega

/-! ## The gather read at a row -/

/-- The gather with a batching axis, read at row R: on the batching axis 0 the operand index is the row itself, on the
    collapsed axis 1 it is the start index of the row, read signed and clamped into the 32000 columns. -/
theorem gather_row {α : Type} (x : S8192x32000.Idx → α) (idx : IVec S8192x1x1 32) (R : Fin 8192) :
    Host.gather gather_S8192x32000_S8192x1x1_S8192x1_n_1_0_0_1_2_11 x idx (ix2 R 0)
      = x (ix2 R (colOf (idx (ix3 R 0 0)))) := by
  unfold Host.gather
  congr 1
  funext a
  refine Fin.ext ?_
  match a with
  | ⟨0, _⟩ =>
    show gather_S8192x32000_S8192x1x1_S8192x1_n_1_0_0_1_2_11.start (ix2 R 0) idx 0
      + gather_S8192x32000_S8192x1x1_S8192x1_n_1_0_0_1_2_11.batchCoord (ix2 R 0) 0
      + gather_S8192x32000_S8192x1x1_S8192x1_n_1_0_0_1_2_11.offCoord (ix2 R 0) 0 = R.val
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    rfl
  | ⟨1, _⟩ =>
    show gather_S8192x32000_S8192x1x1_S8192x1_n_1_0_0_1_2_11.start (ix2 R 0) idx 1
      + gather_S8192x32000_S8192x1x1_S8192x1_n_1_0_0_1_2_11.batchCoord (ix2 R 0) 1
      + gather_S8192x32000_S8192x1x1_S8192x1_n_1_0_0_1_2_11.offCoord (ix2 R 0) 1 = (colOf (idx (ix3 R 0 0))).val
    rw [GatherDims.batchCoord_eq_zero _ _ _ (by decide),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S8192x32000_S8192x1x1_S8192x1_n_1_0_0_1_2_11.startIndexMap from List.mem_singleton.mpr rfl)]
    have hsi : gather_S8192x32000_S8192x1x1_S8192x1_n_1_0_0_1_2_11.siIdx (ix2 R 0)
        ⟨List.idxOf (1 : Fin 2) gather_S8192x32000_S8192x1x1_S8192x1_n_1_0_0_1_2_11.startIndexMap,
          List.idxOf_lt_length_iff.2 (List.mem_singleton.mpr rfl)⟩ = ix3 R 0 0 := by
      funext b; refine Fin.ext ?_
      match b with
      | ⟨0, _⟩ => rfl
      | ⟨1, _⟩ => rfl
      | ⟨2, _⟩ => rfl
    rw [hsi]
    rfl

/-! ## The reference, stage by stage -/

/-- The start index of row R is the row's target word, when that word is below 32000. -/
theorem idx_row (x1 : S8192.Idx → BitVec 32) (R : Fin 8192) (h : (x1 (ix1 R)).toNat < 32000) :
    val_main_call0_v5 (F := Ideal) x1 (ix3 R 0 0) = x1 (ix1 R) := by
  have e : idx_main_v0 (idx_main_call0_v5 (ix3 R 0 0)) = ix1 R := by
    funext a; refine Fin.ext ?_
    match a with
    | ⟨0, _⟩ => show ((R.val * 1 + 0) * 1 + 0) / 1 = R.val; omega
  rw [val_main_call0_v5_apply, val_main_call0_v4_apply, val_main_call0_v1_apply, val_main_call0_v3_apply,
    val_main_v0_apply, val_main_call0_v0_apply, val_main_call0_c_apply, val_main_call0_v2_apply,
    val_main_call0_c_0_apply, e]
  exact shift_id h

/-- The range test passes on every row. -/
theorem inb_row (x1 : S8192.Idx → BitVec 32) (h : ∀ R : Fin 8192, (x1 (ix1 R)).toNat < 32000) (j : S8192x1.Idx) :
    val_main_call0_v12 (F := Ideal) x1 j = 1#1 := by
  unfold val_main_call0_v12
  refine reduce_andi_ones _ _ _ _ rfl (fun i => ?_) j
  obtain ⟨a, b, c, rfl⟩ : ∃ a b c, i = ix3 a b c := ⟨i 0, i 1, i 2, eq_ix3 i⟩
  obtain rfl : b = 0 := Subsingleton.elim _ _
  obtain rfl : c = 0 := Subsingleton.elim _ _
  rw [val_main_call0_v11_apply, val_main_call0_v7_apply, val_main_call0_v10_apply, idx_row x1 a (h a),
    val_main_call0_v6_apply, val_main_call0_c_2_apply, val_main_call0_v9_apply, val_main_call0_v8_apply,
    val_main_call0_c_1_apply]
  exact inrange_one (h a)

/-- Row R's product is the loss's term of row R. -/
theorem row_term (x0 : S8192x32000.Idx → EReal) (x1 : S8192.Idx → BitVec 32) (x2 : S8192.Idx → EReal)
    (h : ∀ R : Fin 8192, (x1 (ix1 R)).toNat < 32000) (R : Fin 8192) :
    val_main_v3 (F := Ideal) x0 x1 x2 (ix1 R) = term x0 x1 x2 R := by
  have e : idx_main_v2 (ix1 R) = ix2 R 0 := by
    funext a; refine Fin.ext ?_
    match a with
    | ⟨0, _⟩ => show R.val / 1 = R.val; omega
    | ⟨1, _⟩ => rfl
  rw [val_main_v3_apply, Ideal.mulf_def, val_main_v2_apply, e, val_main_v1_apply, inb_row x1 h, select_one]
  unfold val_main_call0_v13
  rw [gather_row, idx_row x1 R (h R)]
  rfl

/-- THE REFERENCE'S RESULT IS THE LOSS, for target words below 32000. -/
theorem ref_loss (x0 : S8192x32000.Idx → EReal) (x1 : S8192.Idx → BitVec 32) (x2 : S8192.Idx → EReal)
    (h : ∀ R : Fin 8192, (x1 (ValueIdx.ix1 R)).toNat < 32000) :
    Cert.ReferenceIdeal.Read.val_main_v5 (F := Ideal) x0 x1 x2 = fun _ => Cert.GanLoss.loss x0 x1 x2 := by
  funext i
  rw [val_main_v5_apply, val_main_v4_apply, val_main_cst_apply, Ideal.hostNegf_def, Ideal.negf_def, Ideal.ofBits_def,
    Ideal.ofBits_zero_f32, sum_idx1]
  exact congrArg Neg.neg (congrArg (0 + ·) (Finset.sum_congr rfl fun R _ => row_term x0 x1 x2 h R))

end Cert.ReferenceIdeal.RefLoss

end
-- ==== Proof.PreRange.lean ====
/-
  The precondition puts every target word in range. The predicate is the conjunction of three `jnp.all`s; when
  it is 1 each of them is 1, and the third one says that at every row R the target word t satisfies 0 ≤ t and t < 32000
  as SIGNED 32-bit numbers. A word whose signed reading is nonnegative has its top bit clear, so its signed and unsigned
  readings agree, and the unsigned reading is below 32000.
-/
import proofs.«413421_j89008902242786_3_alg».proof.Pre_finite_inputs
import Idealize.ShloMosaic.Lib.ReduceAll
import Idealize.ShloMosaic.Lib.StableHlo.Predicate
import Idealize.ShloMosaic.Lib.ValueIdx
import Idealize.ShloMosaic.Lib.Pipeline.Value

namespace Cert.Pre_finite_inputs.Range

open Idealize.ShloMosaic Idealize.ShloMosaic.ValueIdx

/-- The predicate's result has exactly one index. -/
instance : Subsingleton Cert.Pre_finite_inputs.S_.Idx := ⟨fun a b => funext fun d => d.elim0⟩

/-- A 32-bit word that is at least 0 and below 32000 when read signed is below 32000 when read unsigned: were its
    unsigned reading 2^31 or more, the signed reading would be negative. -/
theorem toNat_lt_of_signed (t : BitVec 32) (h0 : (0#32 : BitVec 32).toInt ≤ t.toInt)
    (h1 : t.toInt < (32000#32 : BitVec 32).toInt) : t.toNat < 32000 := by
  have z : (0#32 : BitVec 32).toInt = 0 := by decide
  have b : (32000#32 : BitVec 32).toInt = 32000 := by decide
  rw [z] at h0
  rw [b] at h1
  rw [BitVec.toInt_eq_toNat_cond] at h0 h1
  have := t.isLt
  split at h0 <;> omega

/-- The element of the third `jnp.all` at one row: both signed comparisons of the target word hold. -/
theorem elem_bounds (t : BitVec 32)
    (h : IntOp.andi (IntOp.cmpi .sge t 0#32) (IntOp.cmpi .slt t 32000#32) = 1#1) : t.toNat < 32000 := by
  obtain ⟨hge, hlt⟩ := IntOp.andi_eq_one.1 h
  exact toNat_lt_of_signed t (IntOp.cmpi_sge.1 hge) (IntOp.cmpi_slt.1 hlt)

/-- Every target word the precondition admits is below 32000 as a natural number. -/
theorem target_lt [Cert.Pre_finite_inputs.Facts] {F : FTy → Type} [FloatOps F] (x0 : FVec F Cert.Pre_finite_inputs.S8192x32000 .f32) (x1 : IVec Cert.Pre_finite_inputs.S8192 32) (x2 : FVec F Cert.Pre_finite_inputs.S8192 .f32)
    (h : Cert.Pre_finite_inputs.fn (F := F) x0 x1 x2 = fun _ => 1#1) (R : Fin 8192) : (x1 (ValueIdx.ix1 R)).toNat < 32000 := by
  have h0 := congrFun h ValueIdx.ix0
  dsimp only [Cert.Pre_finite_inputs.fn] at h0
  -- the outer conjunction: (all prob finite ∧ all reward finite) ∧ all targets in range
  have h3 := (IntOp.andi_eq_one.1 h0).2
  -- the third `jnp.all`, read at row R
  have hR := Host.reduce_andi_all _ _ _ _ _ h3 (ValueIdx.ix1 R)
  exact elem_bounds _ hR

end Cert.Pre_finite_inputs.Range
-- ==== Proof.lean ====
/-
  The GAN loss  -(sum over the 8192 rows R of prob[R, target R] * reward R) : the tiled kernel against the gather.
  Both programs are read over the extended reals. The reference gathers, per row, the probability in the column its
  target names, multiplies by the reward, sums from zero and negates. The kernel never gathers: it streams the table
  through 8 x 25 tiles of 1024 rows by 1280 columns; in each tile every lane compares its own number with the row's
  target shifted into the tile, keeps the probability where they agree and zero elsewhere, and the lane sum times the
  reward is added to a per-row accumulator that is reset at the first column tile of a row block and totalled at the
  last; the eight totals are summed and negated on the host. With every target in [0, 32000) exactly one lane of one
  tile agrees for each row, so the accumulator ends at the row's term; the rest is regrouping a finite sum. No law
  beyond  0 * x = 0,  x + 0 = x  and the commutative monoid of sums is used, so the finiteness of the floats is not.
  Outside [0, 32000) the programs differ (the kernel clips the target, the reference wraps a negative one and fills
  an overlarge one), which is why the precondition states the range.
  The three frames are the generated ones (the reference's is its run with the result dropped); the idealization
  rewrote nothing, so what it preserves is trivially true.
-/
import proofs.«413421_j89008902242786_3_alg».proof.Defs
import proofs.«413421_j89008902242786_3_alg».proof.Proof.Gen.Kernel
import proofs.«413421_j89008902242786_3_alg».proof.Proof.Gen.Kernel.Frame
import proofs.«413421_j89008902242786_3_alg».proof.Proof.Gen.KernelIdeal
import proofs.«413421_j89008902242786_3_alg».proof.Proof.Gen.KernelIdeal.Frame
import proofs.«413421_j89008902242786_3_alg».proof.Proof.Gen.ReferenceIdeal
import proofs.«413421_j89008902242786_3_alg».proof.Proof.Gen.ReferenceIdeal.Run
import proofs.«413421_j89008902242786_3_alg».proof.Proof.Gen.ReferenceIdeal.Read
import proofs.«413421_j89008902242786_3_alg».proof.Proof.Gen.Pre_finite_inputs
import proofs.«413421_j89008902242786_3_alg».proof.Proof.KernelLoss
import proofs.«413421_j89008902242786_3_alg».proof.Proof.RefLoss
import proofs.«413421_j89008902242786_3_alg».proof.Proof.PreRange
import Idealize.ShloMosaic.Adequacy
import Idealize.ShloMosaic.Init

noncomputable section

namespace Cert.Proof

open Idealize.ShloMosaic Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the loss of the (agreeing) arguments: the kernel by its tiles, the reference by its gather;
    the precondition's range conjunct puts every target word below 32000. -/
theorem algebraic : Cert.algebraic_KernelIdeal_ReferenceIdeal := by
  intro m ρ m' ρ' hpre hagree
  have hr : ∀ (c : Dev Cert.KernelIdeal.nD) (R : Fin 8192),
      (m ((c.tc : Thread Cert.KernelIdeal.nD Cert.KernelIdeal.τ).loc Cert.KernelIdeal.main_arg1) (ix1 R)).toNat < 32000 :=
    fun c R => Cert.Pre_finite_inputs.Range.target_lt _ _ _ (hpre c) R
  refine ⟨fun c => fun _ => Cert.GanLoss.loss
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.KernelLoss.run m ρ hr, ?_⟩
  refine (θ_run Cert.ReferenceIdeal.defs _ _).mono (fun _ h c =>
      ⟨((h c).1.trans (Cert.ReferenceIdeal.Read.val_main_v5_eq _ _ _)).trans ?_, (h c).2⟩)
    (Cert.ReferenceIdeal.Value.run (F := Ideal) m' ρ')
  rw [(hagree c).1, (hagree c).2.1, (hagree c).2.2]
  exact Cert.ReferenceIdeal.RefLoss.ref_loss _ _ _ (hr c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
